-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S50257x512 : S_.BroadcastsInDim S50257x512 (![] : Fin 0 → Fin S50257x512.rank)
  reducesTo_S50257x512_S_d0_1 : S50257x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S1024 .f32) (main_arg6 : FVec F S1024x128 .f32) (main_arg7 : FVec F S128 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg6
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S32x1024 32) (main_arg1 : FVec F S50257x512 .f32) (main_arg2 : FVec F S512x512 .f32) (main_arg3 : FVec F S512 .f32) (main_arg4 : FVec F S512x1024 .f32) (main_arg5 : FVec F S1024 .f32) (main_arg6 : FVec F S1024x128 .f32) (main_arg7 : FVec F S128 .f32) : IVec S_ 1 :=
  let main_v0 : FVec F S50257x512 .f32 := Host.absf main_arg1
  let main_cst : FVec F S_ .f32 := constant S_ .f32 0x7F800000#32
  let main_v1 : FVec F S50257x512 .f32 := broadcastInDim S50257x512 ![] bcast_S_S50257x512 main_cst
  let main_v2 : IVec S50257x512 1 := cmpf .olt main_v0 main_v1
  let main_c : IVec S_ 1 := constantI S_ 1 1#1
  let main_v3 : IVec S_ 1 := (fun x v => Host.reduce IntOp.andi x v reducesTo_S50257x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_v13 main_v16
-- ==== Kernel.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S32x1024x1 : Shape := ⟨3, ![32, 1024, 1]⟩
abbrev S32x1024x512 : Shape := ⟨3, ![32, 1024, 512]⟩
abbrev S32768x512 : Shape := ⟨2, ![32768, 512]⟩
abbrev S1x512 : Shape := ⟨2, ![1, 512]⟩
abbrev S1x1024 : Shape := ⟨2, ![1, 1024]⟩
abbrev S1x128 : Shape := ⟨2, ![1, 128]⟩
abbrev S32768x128 : Shape := ⟨2, ![32768, 128]⟩
abbrev S2048x512 : Shape := ⟨2, ![2048, 512]⟩
abbrev S2048x128 : Shape := ⟨2, ![2048, 128]⟩
abbrev S2048x1024 : Shape := ⟨2, ![2048, 1024]⟩

abbrev nBuf : Space → Nat
  | .hbm => 27
  | .vmem => 10
  | .smem => 0
  | _ => 0

abbrev bufTy : (tb : Table) → Fin (tcTables nBuf tb) → BufTy
  | .hbm, ⟨0, _⟩ => ⟨S32x1024, .i32⟩
  | .hbm, ⟨1, _⟩ => ⟨S50257x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S_, .i32⟩
  | .hbm, ⟨9, _⟩ => ⟨S32x1024, .i32⟩
  | .hbm, ⟨10, _⟩ => ⟨S32x1024, .i1⟩
  | .hbm, ⟨11, _⟩ => ⟨S_, .i32⟩
  | .hbm, ⟨12, _⟩ => ⟨S32x1024, .i32⟩
  | .hbm, ⟨13, _⟩ => ⟨S32x1024, .i32⟩
  | .hbm, ⟨14, _⟩ => ⟨S32x1024, .i32⟩
  | .hbm, ⟨15, _⟩ => ⟨S32x1024x1, .i32⟩
  | .hbm, ⟨16, _⟩ => ⟨S32x1024x512, .f32⟩
  | .hbm, ⟨17, _⟩ => ⟨S32768x512, .f32⟩
  | .hbm, ⟨18, _⟩ => ⟨S32768x512, .bf16⟩
  | .hbm, ⟨19, _⟩ => ⟨S512x512, .f32⟩
  | .hbm, ⟨20, _⟩ => ⟨S512x512, .bf16⟩
  | .hbm, ⟨21, _⟩ => ⟨S512x1024, .bf16⟩
  | .hbm, ⟨22, _⟩ => ⟨S1024x128, .bf16⟩
  | .hbm, ⟨23, _⟩ => ⟨S1x512, .f32⟩
  | .hbm, ⟨24, _⟩ => ⟨S1x1024, .f32⟩
  | .hbm, ⟨25, _⟩ => ⟨S1x128, .f32⟩
  | .hbm, ⟨26, _⟩ => ⟨S32768x128, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S1024x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  shapeCasts_S32x1024x512_S32768x512 : S32x1024x512.ShapeCasts S32768x512
  bitsLt_bf16_f32 : FTy.bits .bf16 < FTy.bits .f32
  transposes_S512x512_S512x512_1_0 : S512x512.Transposes [1, 0] S512x512
  shapeCasts_S512_S1x512 : S512.ShapeCasts S1x512
  shapeCasts_S1024_S1x1024 : S1024.ShapeCasts S1x1024
  shapeCasts_S128_S1x128 : S128.ShapeCasts S1x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  gather_S50257x512_S32x1024x1_S32x1024x512_2_0_n_n_0_2_1512_wf : GatherDims.WF S50257x512 S32x1024x1 S32x1024x512 [2] [0] [] [0] [] 2 ![1, 512]
  dot_S2048x512_S512x512_S2048x512_1_0_0_1_n_n_wf : DotDims.WF S2048x512 S512x512 S2048x512 [1] [0] [0] [1] [] []
  dot_S2048x512_S512x1024_S2048x1024_1_0_0_1_n_n_wf : DotDims.WF S2048x512 S512x1024 S2048x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .bf16 = 32 ∨ (Rect.block (s := S32768x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S32768x128.size a
  hwx0_7 : ∀ i : grid0.Coords, EltTy.bits .f32 = 32 ∨ (Rect.block (s := S32768x128) S2048x128.size (cc0_transform_7 i) (hinb0_7 i)).WholeWords (EltTy.packing .f32)

variable [Facts₀]

def gather_S50257x512_S32x1024x1_S32x1024x512_2_0_n_n_0_2_1512 : GatherDims S50257x512 S32x1024x1 S32x1024x512 where
  offsetDims := [2]
  collapsedSliceDims := [0]
  operandBatchingDims := []
  startIndicesBatchingDims := []
  startIndexMap := [0]
  indexVectorDim := 2
  sliceSizes := ![1, 512]
  wf := gather_S50257x512_S32x1024x1_S32x1024x512_2_0_n_n_0_2_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S32x1024x1 : Shape := ⟨3, ![32, 1024, 1]⟩
abbrev S32x1024x512 : Shape := ⟨3, ![32, 1024, 512]⟩
abbrev S1x1x512 : Shape := ⟨3, ![1, 1, 512]⟩
abbrev S32x1024x1024 : Shape := ⟨3, ![32, 1024, 1024]⟩
abbrev S1x1x1024 : Shape := ⟨3, ![1, 1, 1024]⟩
abbrev S32x1024x128 : Shape := ⟨3, ![32, 1024, 128]⟩
abbrev S1x1x128 : Shape := ⟨3, ![1, 1, 128]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x1024, .i32⟩
  | .hbm, ⟨1, _⟩ => ⟨S50257x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S_, .i32⟩
  | .hbm, ⟨9, _⟩ => ⟨S32x1024, .i32⟩
  | .hbm, ⟨10, _⟩ => ⟨S32x1024, .i1⟩
  | .hbm, ⟨11, _⟩ => ⟨S_, .i32⟩
  | .hbm, ⟨12, _⟩ => ⟨S32x1024, .i32⟩
  | .hbm, ⟨13, _⟩ => ⟨S32x1024, .i32⟩
  | .hbm, ⟨14, _⟩ => ⟨S32x1024, .i32⟩
  | .hbm, ⟨15, _⟩ => ⟨S32x1024x1, .i32⟩
  | .hbm, ⟨16, _⟩ => ⟨S32x1024x512, .f32⟩
  | .hbm, ⟨17, _⟩ => ⟨S32x1024x512, .f32⟩
  | .hbm, ⟨18, _⟩ => ⟨S1x1x512, .f32⟩
  | .hbm, ⟨19, _⟩ => ⟨S32x1024x512, .f32⟩
  | .hbm, ⟨20, _⟩ => ⟨S32x1024x512, .f32⟩
  | .hbm, ⟨21, _⟩ => ⟨S_, .f32⟩
  | .hbm, ⟨22, _⟩ => ⟨S32x1024x512, .f32⟩
  | .hbm, ⟨23, _⟩ => ⟨S32x1024x512, .f32⟩
  | .hbm, ⟨24, _⟩ => ⟨S32x1024x1024, .f32⟩
  | .hbm, ⟨25, _⟩ => ⟨S1x1x1024, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x1024x1024, .f32⟩
  | .hbm, ⟨30, _⟩ => ⟨S32x1024x1024, .f32⟩
  | .hbm, ⟨31, _⟩ => ⟨S32x1024x128, .f32⟩
  | .hbm, ⟨32, _⟩ => ⟨S1x1x128, .f32⟩
  | .hbm, ⟨33, _⟩ => ⟨S32x1024x128, .f32⟩
  | .hbm, ⟨34, _⟩ => ⟨S32x1024x128, .f32⟩
  | .hbm, ⟨35, _⟩ => ⟨S32768x128, .f32⟩
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  shapeCasts_S32x1024x128_S32768x128 : S32x1024x128.ShapeCasts S32768x128
  gather_S50257x512_S32x1024x1_S32x1024x512_2_0_n_n_0_2_1512_wf : GatherDims.WF S50257x512 S32x1024x1 S32x1024x512 [2] [0] [] [0] [] 2 ![1, 512]
  dot_S32x1024x512_S512x512_S32x1024x512_2_1_01_0_n_n_wf : DotDims.WF S32x1024x512 S512x512 S32x1024x512 [2] [1] [0, 1] [0] [] []
  dot_S32x1024x512_S512x1024_S32x1024x1024_2_0_01_1_n_n_wf : DotDims.WF S32x1024x512 S512x1024 S32x1024x1024 [2] [0] [0, 1] [1] [] []
  dot_S32x1024x1024_S1024x128_S32x1024x128_2_0_01_1_n_n_wf : DotDims.WF S32x1024x1024 S1024x128 S32x1024x128 [2] [0] [0, 1] [1] [] []

variable [Facts₀]

def gather_S50257x512_S32x1024x1_S32x1024x512_2_0_n_n_0_2_1512 : GatherDims S50257x512 S32x1024x1 S32x1024x512 where
  offsetDims := [2]
  collapsedSliceDims := [0]
  operandBatchingDims := []
  startIndicesBatchingDims := []
  startIndexMap := [0]
  indexVectorDim := 2
  sliceSizes := ![1, 512]
  wf := gather_S50257x512_S32x1024x1_S32x1024x512_2_0_n_n_0_2_1512_wf
def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S512x1024_S32x1024x1024_2_0_01_1_n_n : DotDims S32x1024x512 S512x1024 S32x1024x1024 where
  lhsContracting := [2]
  rhsContracting := [0]
  lhsNonContracting := [0, 1]
  rhsNonContracting := [1]
  lhsBatch := []
  rhsBatch := []
  wf := dot_S32x1024x512_S512x1024_S32x1024x1024_2_0_01_1_n_n_wf
def dot_S32x1024x1024_S1024x128_S32x1024x128_2_0_01_1_n_n : DotDims S32x1024x1024 S1024x128 S32x1024x128 where
  lhsContracting := [2]
  rhsContracting := [0]
  lhsNonContracting := [0, 1]
  rhsNonContracting := [1]
  lhsBatch := []
  rhsBatch := []
  wf := dot_S32x1024x1024_S1024x128_S32x1024x128_2_0_01_1_n_n_wf

class Facts : Prop extends Facts₀ where

variable [Facts]
-- ==== Proof.Spec.lean ====
/-
  The function both programs compute, one token row at a time.

  A row `x` of 512 embedding coordinates goes through three affine layers with a rectifier after the first two:
  `h = max (x · Wc + bc) 0`, `z = max (h · W1 + b1) 0`, `out = z · W2 + b2`. Each layer is the same map
  `affine`: a sum over the incoming coordinate of value times weight, plus the bias of the outgoing coordinate.
  Everything is stated on the extended reals with the weights as functions of (incoming, outgoing) coordinates;
  the zero the rectifier compares against is kept as the float pattern both programs print, so it is never evaluated.
-/
import Idealize.ShloMosaic.PureOps.Ideal
import Idealize.ShloMosaic.Lib.ValueIdx

noncomputable section

open scoped BigOperators

namespace Cert.TokenMlp

open Idealize.ShloMosaic

/-- One affine layer at outgoing coordinate `j`: `∑ e, x e * w e j + b j`. -/
def affine {n k : Nat} (x : Fin n → EReal) (w : Fin n → Fin k → EReal) (b : Fin k → EReal) (j : Fin k) : EReal :=
  (∑ e : Fin n, x e * w e j) + b j

/-- The zero the rectifier compares against: the f32 pattern of `0.0`, read at the ideal instance. -/
def zero : EReal := Ideal.ofBits .f32 0x00000000#32

/-- An affine layer followed by the rectifier. -/
def rectified {n k : Nat} (x : Fin n → EReal) (w : Fin n → Fin k → EReal) (b : Fin k → EReal) (j : Fin k) : EReal :=
  max (affine x w b j) zero

/-- The three layers on one row: 512 → 512 → 1024 → 128. -/
def mlp (x : Fin 512 → EReal) (wc : Fin 512 → Fin 512 → EReal) (bc : Fin 512 → EReal)
    (w1 : Fin 512 → Fin 1024 → EReal) (b1 : Fin 1024 → EReal)
    (w2 : Fin 1024 → Fin 128 → EReal) (b2 : Fin 128 → EReal) (l : Fin 128) : EReal :=
  affine (rectified (rectified x wc bc) w1 b1) w2 b2 l

/-- Row `r` of the flattened batch is sequence position `r % 1024` of batch entry `r / 1024`. -/
def batchOf (r : Fin 32768) : Fin 32 := ⟨r.val / 1024, by have := r.isLt; omega⟩
def posOf (r : Fin 32768) : Fin 1024 := ⟨r.val % 1024, Nat.mod_lt _ (by decide)⟩

/-- The whole result, index by index: row `i 0` of the gathered embeddings `g` (laid out batch × position × coordinate)
    through the three layers, read at label `i 1`. The first layer's weight is stored (outgoing, incoming). -/
def result (g : (⟨3, ![32, 1024, 512]⟩ : Shape).Idx → EReal)
    (cw : (⟨2, ![512, 512]⟩ : Shape).Idx → EReal) (cb : (⟨1, ![512]⟩ : Shape).Idx → EReal)
    (w1 : (⟨2, ![512, 1024]⟩ : Shape).Idx → EReal) (b1 : (⟨1, ![1024]⟩ : Shape).Idx → EReal)
    (w2 : (⟨2, ![1024, 128]⟩ : Shape).Idx → EReal) (b2 : (⟨1, ![128]⟩ : Shape).Idx → EReal) :
    (⟨2, ![32768, 128]⟩ : Shape).Idx → EReal := fun i =>
  mlp (fun e => g (ValueIdx.ix3 (batchOf (i 0)) (posOf (i 0)) e))
    (fun e j => cw (ValueIdx.ix2 j e)) (fun j => cb (ValueIdx.ix1 j))
    (fun j k => w1 (ValueIdx.ix2 j k)) (fun k => b1 (ValueIdx.ix1 k))
    (fun k l => w2 (ValueIdx.ix2 k l)) (fun l => b2 (ValueIdx.ix1 l)) (i 1)

end Cert.TokenMlp

end
-- ==== Proof.Body.lean ====
/-
  The kernel body's one store, read at an index.

  The body multiplies the row block by the first weight, adds the bias row, rectifies, and repeats twice more
  (no rectifier after the last product). Each `tpu.matmul` into a zero accumulator is, on the extended reals, the plain
  sum over the contracted coordinate; the bias is a one-row block broadcast down the rows; the changes of float
  format are the identity. So entry (p, l) of the stored block is the three-layer function of row p of the input
  block.
-/
import proofs.«170255_j5815385719211_1_alg».proof.Proof.Gen.KernelIdeal.Skeleton
import proofs.«170255_j5815385719211_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.TokenMlp

/-! ## Product 1: [2048, 512] · [512, 512] -/

/-- The left operand's row is the output's row. -/
theorem lhs1_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contracted coordinate. -/
theorem lhs1_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row is the contracted coordinate. -/
theorem rhs1_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column is the output's column. -/
theorem rhs1_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into a zero accumulator at (p, j): `∑ e, l (p, e) * r (e, j)`. -/
theorem product1_apply (l : FVec Ideal S2048x512 .bf16) (r : FVec Ideal S512x512 .bf16) (p : Fin 2048) (j : Fin 512) :
    matmul dot_S2048x512_S512x512_S2048x512_1_0_0_1_n_n none l r (constant (F := Ideal) S2048x512 .f32 0x00000000#32) (ix2 p j) = ∑ e : Fin 512, l (ix2 p e) * r (ix2 e j) := by
  refine (Ideal.matmul_constant_zero_apply dot_S2048x512_S512x512_S2048x512_1_0_0_1_n_n none l r (ix2 p j)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p j) ((contrEquiv1 dot_S2048x512_S512x512_S2048x512_1_0_0_1_n_n 512 rfl rfl).symm k) = ix2 p k := funext fun a => Fin.ext (by
    match a with
    | ⟨0, _⟩ => exact lhs1_0 _ _
    | ⟨1, _⟩ => exact (lhs1_1 _ _).trans hk)
  have er : dot_S2048x512_S512x512_S2048x512_1_0_0_1_n_n.rhsIdx (ix2 p j) ((contrEquiv1 dot_S2048x512_S512x512_S2048x512_1_0_0_1_n_n 512 rfl rfl).symm k) = ix2 k j := funext fun a => Fin.ext (by
    match a with
    | ⟨0, _⟩ => exact (rhs1_0 _ _).trans hk
    | ⟨1, _⟩ => exact rhs1_1 _ _)
  rw [el, er]

/-- The bias row broadcast down the rows, at (p, j): the row's entry j. -/
theorem bias1_apply (b : FVec Ideal S1x512 .f32) (p : Fin 2048) (j : Fin 512) :
    broadcastTo S2048x512 (shapeCast S1x512 b shapeCasts_S1x512_S1x512) broadcasts_S1x512_S2048x512 (ix2 p j) = b (ix2 0 j) := by
  rw [shapeCast_self]
  exact broadcastTo_apply b broadcasts_S1x512_S2048x512 (ix2 p j) (ix2 0 j) (fun a => match a with
    | ⟨0, _⟩ => by show 0 = if (1 : Nat) = 1 then 0 else _; rw [if_pos rfl]
    | ⟨1, _⟩ => by show j.val = if (512 : Nat) = 1 then 0 else j.val; rw [if_neg (by decide)])

/-- Layer 1 before the rectifier, at (p, j): the affine map of row p. -/
theorem layer1_apply (a : FVec Ideal S2048x512 .bf16) (w : FVec Ideal S512x512 .bf16) (b : FVec Ideal S1x512 .f32) (p : Fin 2048) (j : Fin 512) :
    addf (matmul dot_S2048x512_S512x512_S2048x512_1_0_0_1_n_n none a (shapeCast S512x512 w shapeCasts_S512x512_S512x512) (constant (F := Ideal) S2048x512 .f32 0x00000000#32))
      (broadcastTo S2048x512 (shapeCast S1x512 b shapeCasts_S1x512_S1x512) broadcasts_S1x512_S2048x512) (ix2 p j)
    = affine (fun e => a (ix2 p e)) (fun e j => w (ix2 e j)) (fun j => b (ix2 0 j)) j := by
  rw [addf_apply, product1_apply, bias1_apply, shapeCast_self]
  rfl

/-! ## Product 2: [2048, 512] · [512, 1024] -/

/-- The left operand's row is the output's row. -/
theorem lhs2_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
/-- The left operand's column is the contracted coordinate. -/
theorem lhs2_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
/-- The right operand's row is the contracted coordinate. -/
theorem rhs2_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
/-- The right operand's column is the output's column. -/
theorem rhs2_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The product into a zero accumulator at (p, j): `∑ e, l (p, e) * r (e, j)`. -/
theorem product2_apply (l : FVec Ideal S2048x512 .bf16) (r : FVec Ideal S512x1024 .bf16) (p : Fin 2048) (j : Fin 1024) :
    matmul dot_S2048x512_S512x1024_S2048x1024_1_0_0_1_n_n none l r (constant (F := Ideal) S2048x1024 .f32 0x00000000#32) (ix2 p j) = ∑ e : Fin 512, l (ix2 p e) * r (ix2 e j) := by
  refine (Ideal.matmul_constant_zero_apply dot_S2048x512_S512x1024_S2048x1024_1_0_0_1_n_n none l r (ix2 p j)).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p j) ((contrEquiv1 dot_S2048x512_S512x1024_S2048x1024_1_0_0_1_n_n 512 rfl rfl).symm k) = ix2 p k := funext fun a => Fin.ext (by
    match a with
    | ⟨0, _⟩ => exact lhs2_0 _ _
    | ⟨1, _⟩ => exact (lhs2_1 _ _).trans hk)
  have er : dot_S2048x512_S512x1024_S2048x1024_1_0_0_1_n_n.rhsIdx (ix2 p j) ((contrEquiv1 dot_S2048x512_S512x1024_S2048x1024_1_0_0_1_n_n 512 rfl rfl).symm k) = ix2 k j := funext fun a => Fin.ext (by
    match a with
    | ⟨0, _⟩ => exact (rhs2_0 _ _).trans hk
    | ⟨1, _⟩ => exact rhs2_1 _ _)
  rw [el, er]

/-- The bias row broadcast down the rows, at (p, j): the row's entry j. -/
theorem bias2_apply (b : FVec Ideal S1x1024 .f32) (p : Fin 2048) (j : Fin 1024) :
    broadcastTo S2048x1024 (shapeCast S1x1024 b shapeCasts_S1x1024_S1x1024) broadcasts_S1x1024_S2048x1024 (ix2 p j) = b (ix2 0 j) := by
  rw [shapeCast_self]
  exact broadcastTo_apply b broadcasts_S1x1024_S2048x1024 (ix2 p j) (ix2 0 j) (fun a => match a with
    | ⟨0, _⟩ => by show 0 = if (1 : Nat) = 1 then 0 else _; rw [if_pos rfl]
    | ⟨1, _⟩ => by show j.val = if (1024 : Nat) = 1 then 0 else j.val; rw [if_neg (by decide)])

/-- Layer 2 before the rectifier, at (p, j): the affine map of row p. -/
theorem layer2_apply (a : FVec Ideal S2048x512 .bf16) (w : FVec Ideal S512x1024 .bf16) (b : FVec Ideal S1x1024 .f32) (p : Fin 2048) (j : Fin 1024) :
    addf (matmul dot_S2048x512_S512x1024_S2048x1024_1_0_0_1_n_n none a (shapeCast S512x1024 w shapeCasts_S512x1024_S512x1024) (constant (F := Ideal) S2048x1024 .f32 0x00000000#32))
      (broadcastTo S2048x1024 (shapeCast S1x1024 b shapeCasts_S1x1024_S1x1024) broadcasts_S1x1024_S2048x1024) (ix2 p j)
    = affine (fun e => a (ix2 p e)) (fun e j => w (ix2 e j)) (fun j => b (ix2 0 j)) j := by
  rw [addf_apply, product2_apply, bias2_apply, shapeCast_self]
  rfl

/-! ## Product 3: [2048, 1024] · [1024, 128] -/

/-- The left operand's row is the output's row. -/
theorem lhs3_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- The left operand's column is the contracted coordinate. -/
theorem lhs3_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- The right operand's row is the contracted coordinate. -/
theorem rhs3_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- The right operand's column is the output's column. -/
theorem rhs3_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator at (p, j): `∑ e, l (p, e) * r (e, j)`. -/
theorem product3_apply (l : FVec Ideal S2048x1024 .bf16) (r : FVec Ideal S1024x128 .bf16) (p : Fin 2048) (j : Fin 128) :
    matmul dot_S2048x1024_S1024x128_S2048x128_1_0_0_1_n_n none l r (constant (F := Ideal) S2048x128 .f32 0x00000000#32) (ix2 p j) = ∑ e : Fin 1024, l (ix2 p e) * r (ix2 e j) := by
  refine (Ideal.matmul_constant_zero_apply dot_S2048x1024_S1024x128_S2048x128_1_0_0_1_n_n none l r (ix2 p j)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p j) ((contrEquiv1 dot_S2048x1024_S1024x128_S2048x128_1_0_0_1_n_n 1024 rfl rfl).symm k) = ix2 p k := funext fun a => Fin.ext (by
    match a with
    | ⟨0, _⟩ => exact lhs3_0 _ _
    | ⟨1, _⟩ => exact (lhs3_1 _ _).trans hk)
  have er : dot_S2048x1024_S1024x128_S2048x128_1_0_0_1_n_n.rhsIdx (ix2 p j) ((contrEquiv1 dot_S2048x1024_S1024x128_S2048x128_1_0_0_1_n_n 1024 rfl rfl).symm k) = ix2 k j := funext fun a => Fin.ext (by
    match a with
    | ⟨0, _⟩ => exact (rhs3_0 _ _).trans hk
    | ⟨1, _⟩ => exact rhs3_1 _ _)
  rw [el, er]

/-- The bias row broadcast down the rows, at (p, j): the row's entry j. -/
theorem bias3_apply (b : FVec Ideal S1x128 .f32) (p : Fin 2048) (j : Fin 128) :
    broadcastTo S2048x128 (shapeCast S1x128 b shapeCasts_S1x128_S1x128) broadcasts_S1x128_S2048x128 (ix2 p j) = b (ix2 0 j) := by
  rw [shapeCast_self]
  exact broadcastTo_apply b broadcasts_S1x128_S2048x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-- Layer 3 before the rectifier, at (p, j): the affine map of row p. -/
theorem layer3_apply (a : FVec Ideal S2048x1024 .bf16) (w : FVec Ideal S1024x128 .bf16) (b : FVec Ideal S1x128 .f32) (p : Fin 2048) (j : Fin 128) :
    addf (matmul dot_S2048x1024_S1024x128_S2048x128_1_0_0_1_n_n none a (shapeCast S1024x128 w shapeCasts_S1024x128_S1024x128) (constant (F := Ideal) S2048x128 .f32 0x00000000#32))
      (broadcastTo S2048x128 (shapeCast S1x128 b shapeCasts_S1x128_S1x128) broadcasts_S1x128_S2048x128) (ix2 p j)
    = affine (fun e => a (ix2 p e)) (fun e j => w (ix2 e j)) (fun j => b (ix2 0 j)) j := by
  rw [addf_apply, product3_apply, bias3_apply, shapeCast_self]
  rfl

/-! ## The stored block -/

/-- Entry (p, l) of the block the body stores is the three layers applied to row p of the input block, read at l. -/
theorem payload_apply (x0 : FVec Ideal S2048x512 .bf16) (x1 : FVec Ideal S512x512 .bf16) (x2 : FVec Ideal S1x512 .f32)
    (x3 : FVec Ideal S512x1024 .bf16) (x4 : FVec Ideal S1x1024 .f32) (x5 : FVec Ideal S1024x128 .bf16) (x6 : FVec Ideal S1x128 .f32)
    (p : Fin 2048) (l : Fin 128) :
    k0_pay1 (F := Ideal) x0 x1 x2 x3 x4 x5 x6 (ix2 p l)
    = mlp (fun e => x0 (ix2 p e)) (fun e j => x1 (ix2 e j)) (fun j => x2 (ix2 0 j))
        (fun j k => x3 (ix2 j k)) (fun k => x4 (ix2 0 k)) (fun k l => x5 (ix2 k l)) (fun l => x6 (ix2 0 l)) l := by
  unfold k0_pay1
  refine (layer3_apply _ x5 x6 p l).trans ?_
  unfold mlp
  refine congrArg (fun x => affine x _ _ l) (funext fun k => ?_)
  unfold rectified
  refine congrArg (fun y => max y zero) ((layer2_apply _ x3 x4 p k).trans ?_)
  refine congrArg (fun x => affine x _ _ k) (funext fun j => ?_)
  refine congrArg (fun y => max y zero) ((layer1_apply _ x1 x2 p j).trans ?_)
  rw [shapeCast_self]

/-- The same entry against the whole result at an array index `i`: when the blocks hold the arrays' entries that row
    `i 0` and label `i 1` call for (the first weight stored transposed in its block), the stored entry is `result … i`. -/
theorem payload_eq_result (x0 : FVec Ideal S2048x512 .bf16) (x1 : FVec Ideal S512x512 .bf16) (x2 : FVec Ideal S1x512 .f32)
    (x3 : FVec Ideal S512x1024 .bf16) (x4 : FVec Ideal S1x1024 .f32) (x5 : FVec Ideal S1024x128 .bf16) (x6 : FVec Ideal S1x128 .f32)
    (g : (⟨3, ![32, 1024, 512]⟩ : Shape).Idx → EReal)
    (cw : (⟨2, ![512, 512]⟩ : Shape).Idx → EReal) (cb : (⟨1, ![512]⟩ : Shape).Idx → EReal)
    (w1 : (⟨2, ![512, 1024]⟩ : Shape).Idx → EReal) (b1 : (⟨1, ![1024]⟩ : Shape).Idx → EReal)
    (w2 : (⟨2, ![1024, 128]⟩ : Shape).Idx → EReal) (b2 : (⟨1, ![128]⟩ : Shape).Idx → EReal)
    (i : (⟨2, ![32768, 128]⟩ : Shape).Idx) (p : Fin 2048) (l : Fin 128)
    (h0 : ∀ e, x0 (ix2 p e) = g (ix3 (batchOf (i 0)) (posOf (i 0)) e))
    (h1 : ∀ e j, x1 (ix2 e j) = cw (ix2 j e))
    (h2 : ∀ j, x2 (ix2 0 j) = cb (ix1 j))
    (h3 : ∀ j k, x3 (ix2 j k) = w1 (ix2 j k))
    (h4 : ∀ k, x4 (ix2 0 k) = b1 (ix1 k))
    (h5 : ∀ k l, x5 (ix2 k l) = w2 (ix2 k l))
    (h6 : ∀ l, x6 (ix2 0 l) = b2 (ix1 l))
    (hl : i 1 = l) :
    k0_pay1 (F := Ideal) x0 x1 x2 x3 x4 x5 x6 (ix2 p l) = result g cw cb w1 b1 w2 b2 i := by
  rw [payload_apply]
  unfold result
  rw [hl]
  simp only [h0, h1, h2, h3, h4, h5, h6]

end Cert.KernelIdeal.Body

end
-- ==== Proof.Arrays.lean ====
/-
  The arrays the kernel's region finds, read at an index.

  Before the region the host gathers one embedding row per token (negative ids wrapped by the table's length first),
  flattens batch × position into 32768 rows, transposes the first weight, and gives each bias a leading unit axis; the
  conversions to the narrow float format are the identity on the extended reals. So row r of the region's input is
  the gathered row at (r / 1024, r % 1024), the first weight is read transposed, and the other arrays are the
  arguments themselves.
-/
import proofs.«170255_j5815385719211_1_alg».proof.Proof.Gen.KernelIdeal.Frame
import proofs.«170255_j5815385719211_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.TokenMlp

/-- The gather's start indices: a token id below zero is moved up by the table's length, then the ids get a
    trailing unit axis. -/
def starts (ids : (⟨S32x1024, .i32⟩ : BufTy).Contents (Elt Ideal)) : (⟨S32x1024x1, .i32⟩ : BufTy).Contents (Elt Ideal) :=
  broadcastInDim S32x1024x1 ![0, 1] bcast_S32x1024_S32x1024x1_0_1
    (select (cmpi .slt ids (broadcastInDim S32x1024 ![] bcast_S_S32x1024 (constantI S_ 32 0#32)))
      (addi ids (broadcastInDim S32x1024 ![] bcast_S_S32x1024 (constantI S_ 32 50257#32))) ids)

/-- The gathered embeddings, batch × position × coordinate. -/
def gathered (ids : (⟨S32x1024, .i32⟩ : BufTy).Contents (Elt Ideal)) (emb : (⟨S50257x512, .f32⟩ : BufTy).Contents (Elt Ideal)) :
    (⟨S32x1024x512, .f32⟩ : BufTy).Contents (Elt Ideal) :=
  Host.gather gather_S50257x512_S32x1024x1_S32x1024x512_2_0_n_n_0_2_1512 emb (starts ids)

variable (m : (ℓ : Loc nD τ sig) → Buf (Elt Ideal) ℓ)

/-! ## Each window's array as the host operations' term -/

theorem rows_eq (c : Dev nD) : (V m c main_v8 : S32768x512.Idx → EReal)
    = truncf (F := Ideal) .bf16 (shapeCast S32768x512 (gathered (m ((c : Thread nD τ).loc main_arg0)) (m ((c : Thread nD τ).loc main_arg1))) shapeCasts_S32x1024x512_S32768x512) bitsLt_bf16_f32 := by
  dsimp only [V, hostOps0]; after_results; rfl

theorem convT_eq (c : Dev nD) : (V m c main_v10 : S512x512.Idx → EReal)
    = truncf (F := Ideal) .bf16 (transpose S512x512 [1, 0] (m ((c : Thread nD τ).loc main_arg2)) transposes_S512x512_S512x512_1_0) bitsLt_bf16_f32 := by
  dsimp only [V, hostOps0]; after_results

theorem w1_eq (c : Dev nD) : (V m c main_v11 : S512x1024.Idx → EReal) = truncf (F := Ideal) .bf16 (m ((c : Thread nD τ).loc main_arg4)) bitsLt_bf16_f32 := by
  dsimp only [V, hostOps0]; after_results

theorem w2_eq (c : Dev nD) : (V m c main_v12 : S1024x128.Idx → EReal) = truncf (F := Ideal) .bf16 (m ((c : Thread nD τ).loc main_arg6)) bitsLt_bf16_f32 := by
  dsimp only [V, hostOps0]; after_results

theorem convb_eq (c : Dev nD) : (V m c main_v13 : S1x512.Idx → EReal) = shapeCast S1x512 (m ((c : Thread nD τ).loc main_arg3)) shapeCasts_S512_S1x512 := by
  dsimp only [V, hostOps0]; after_results; rfl

theorem b1_eq (c : Dev nD) : (V m c main_v14 : S1x1024.Idx → EReal) = shapeCast S1x1024 (m ((c : Thread nD τ).loc main_arg5)) shapeCasts_S1024_S1x1024 := by
  dsimp only [V, hostOps0]; after_results; rfl

theorem b2_eq (c : Dev nD) : (V m c main_v15 : S1x128.Idx → EReal) = shapeCast S1x128 (m ((c : Thread nD τ).loc main_arg7)) shapeCasts_S128_S1x128 := by
  dsimp only [V, hostOps0]; after_results; rfl

/-! ## …and at an index -/

/-- Row r of the region's input is the gathered row of batch entry r / 1024 at position r % 1024. -/
theorem rows_at (c : Dev nD) (r : Fin 32768) (e : Fin 512) :
    (V m c main_v8 : S32768x512.Idx → EReal) (ix2 r e) = gathered (m ((c : Thread nD τ).loc main_arg0)) (m ((c : Thread nD τ).loc main_arg1)) (ix3 (batchOf r) (posOf r) e) := by
  rw [rows_eq]
  show shapeCast S32768x512 (gathered (m ((c : Thread nD τ).loc main_arg0)) (m ((c : Thread nD τ).loc main_arg1))) shapeCasts_S32x1024x512_S32768x512 (ix2 r e) = _
  exact shapeCast_apply _ shapeCasts_S32x1024x512_S32768x512 (ix2 r e) (ix3 (batchOf r) (posOf r) e) (by
    rw [Shape.rowMajor_val_three, Shape.rowMajor_val_two]
    show (r.val / 1024 * 1024 + r.val % 1024) * 512 + e.val = r.val * 512 + e.val
    omega)

/-- The first weight as the region finds it is the argument transposed. -/
theorem convT_at (c : Dev nD) (e j : Fin 512) :
    (V m c main_v10 : S512x512.Idx → EReal) (ix2 e j) = (m ((c : Thread nD τ).loc main_arg2)) (ix2 j e) := by
  rw [convT_eq]
  exact transpose_ix2_apply (m ((c : Thread nD τ).loc main_arg2)) transposes_S512x512_S512x512_1_0 e j

theorem w1_at (c : Dev nD) (i : S512x1024.Idx) : (V m c main_v11 : S512x1024.Idx → EReal) i = (m ((c : Thread nD τ).loc main_arg4)) i := by
  rw [w1_eq]; rfl

theorem w2_at (c : Dev nD) (i : S1024x128.Idx) : (V m c main_v12 : S1024x128.Idx → EReal) i = (m ((c : Thread nD τ).loc main_arg6)) i := by
  rw [w2_eq]; rfl

theorem convb_at (c : Dev nD) (u : Fin 1) (j : Fin 512) : (V m c main_v13 : S1x512.Idx → EReal) (ix2 u j) = (m ((c : Thread nD τ).loc main_arg3)) (ix1 j) := by
  rw [convb_eq]; exact shapeCast_a_1a_apply (m ((c : Thread nD τ).loc main_arg3)) shapeCasts_S512_S1x512 u j

theorem b1_at (c : Dev nD) (u : Fin 1) (k : Fin 1024) : (V m c main_v14 : S1x1024.Idx → EReal) (ix2 u k) = (m ((c : Thread nD τ).loc main_arg5)) (ix1 k) := by
  rw [b1_eq]; exact shapeCast_a_1a_apply (m ((c : Thread nD τ).loc main_arg5)) shapeCasts_S1024_S1x1024 u k

theorem b2_at (c : Dev nD) (u : Fin 1) (l : Fin 128) : (V m c main_v15 : S1x128.Idx → EReal) (ix2 u l) = (m ((c : Thread nD τ).loc main_arg7)) (ix1 l) := by
  rw [b2_eq]; exact shapeCast_a_1a_apply (m ((c : Thread nD τ).loc main_arg7)) shapeCasts_S128_S1x128 u l

end Cert.KernelIdeal.Arrays

end
-- ==== Proof.Whole.lean ====
/-
  From the blocks to the whole result array.

  The grid has 16 points; point t reads rows [2048 t, 2048 t + 2048) of the input and writes the same rows of the
  result, and every other window is one block that is the whole array. So what point t writes back is the block at
  those rows of ONE function of the launch contents — the three layers applied row by row to the gathered
  embeddings — and the 16 blocks cover the 32768 rows, so the result array ends holding that function.
-/
import proofs.«170255_j5815385719211_1_alg».proof.Proof.Gen.KernelIdeal.Value
import proofs.«170255_j5815385719211_1_alg».proof.Proof.Body
import proofs.«170255_j5815385719211_1_alg».proof.Proof.Arrays
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.TokenMlp Cert.KernelIdeal.Arrays Cert.KernelIdeal.Body
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result as one function of the launch contents on core `c`. -/
abbrev whole (c : Dev nD) : S32768x128.Idx → EReal :=
  result (gathered (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The printed index maps over the 16 points: the input's row block moves with the output's, every other block
    index is zero, and the output's row block index is at most 15. -/
theorem index_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 15 ∧ win0_7.index t (1 : Fin 2) = 0 :=
  (by decide +kernel : ∀ t : Fin grid0.N, _)

/-- Every row block of the result is some point's. -/
theorem index_onto : ∀ q : Fin 16, ∃ t : Fin cfg0.N, win0_7.index t = ![q.val, 0] :=
  (by decide +kernel : ∀ q : Fin 16, ∃ t : Fin grid0.N, win0_7.index t = ![q.val, 0])

/-- What point `t` writes back is the block of `whole` at its rows. -/
theorem flushed_eq (c : Dev nD) (t : Fin cfg0.N) :
    (dats m 0 c).flushed 7 t = ((cfg0.win 7).blk t).view.read (Elt Ideal) (whole m c) := by
  rw [Value.flushed7]
  unfold out0_7
  rw [View.canon_unit_zero origin]
  simp only [View.ld_unit_zero (S := S2048x512) origin, View.ld_unit_zero (S := S512x512) origin, View.ld_unit_zero (S := S1x512) origin, View.ld_unit_zero (S := S512x1024) origin, View.ld_unit_zero (S := S1x1024) origin, View.ld_unit_zero (S := S1024x128) origin, View.ld_unit_zero (S := S1x128) origin]
  obtain ⟨e00, e01, e10, e11, e20, e21, e30, e31, e40, e41, e50, e51, e60, e61, e70, e71⟩ := index_facts t
  funext y
  obtain ⟨p, l, rfl⟩ : ∃ (p : Fin 2048) (l : Fin 128), y = ix2 p l := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p l)
    = whole m c (((cfg0.win 7).blk t).view.emb (ix2 p l))
  refine payload_eq_result _ _ _ _ _ _ _ _ _ _ _ _ _ _ _ p l ?_ ?_ ?_ ?_ ?_ ?_ ?_ ?_
  · intro e
    show V m c main_v8 (((cfg0.win 0).blk t).view.emb (ix2 p e)) = _
    have hi : ((cfg0.win 0).blk t).view.emb (ix2 p e) = ix2 (((cfg0.win 7).blk t).view.emb (ix2 p l) 0) e := by
      funext a; apply Fin.ext
      match a with
      | ⟨0, _⟩ => show win0_0.index t (0 : Fin 2) * 2048 + 1 * p.val = win0_7.index t (0 : Fin 2) * 2048 + 1 * p.val; omega
      | ⟨1, _⟩ => show win0_0.index t (1 : Fin 2) * 512 + 1 * e.val = e.val; omega
    rw [hi]; exact rows_at m c _ e
  · intro e j
    show V m c main_v10 (((cfg0.win 1).blk t).view.emb (ix2 e j)) = _
    have hi : ((cfg0.win 1).blk t).view.emb (ix2 e j) = ix2 e j := by
      funext a; apply Fin.ext
      match a with
      | ⟨0, _⟩ => show win0_1.index t (0 : Fin 2) * 512 + 1 * e.val = e.val; omega
      | ⟨1, _⟩ => show win0_1.index t (1 : Fin 2) * 512 + 1 * j.val = j.val; omega
    rw [hi]; exact convT_at m c e j
  · intro j
    show V m c main_v13 (((cfg0.win 2).blk t).view.emb (ix2 0 j)) = _
    have hi : ((cfg0.win 2).blk t).view.emb (ix2 0 j) = ix2 0 j := by
      funext a; apply Fin.ext
      match a with
      | ⟨0, _⟩ => show win0_2.index t (0 : Fin 2) * 1 + 1 * 0 = 0; omega
      | ⟨1, _⟩ => show win0_2.index t (1 : Fin 2) * 512 + 1 * j.val = j.val; omega
    rw [hi]; exact convb_at m c 0 j
  · intro j k
    show V m c main_v11 (((cfg0.win 3).blk t).view.emb (ix2 j k)) = _
    have hi : ((cfg0.win 3).blk t).view.emb (ix2 j k) = ix2 j k := by
      funext a; apply Fin.ext
      match a with
      | ⟨0, _⟩ => show win0_3.index t (0 : Fin 2) * 512 + 1 * j.val = j.val; omega
      | ⟨1, _⟩ => show win0_3.index t (1 : Fin 2) * 1024 + 1 * k.val = k.val; omega
    rw [hi]; exact w1_at m c _
  · intro k
    show V m c main_v14 (((cfg0.win 4).blk t).view.emb (ix2 0 k)) = _
    have hi : ((cfg0.win 4).blk t).view.emb (ix2 0 k) = ix2 0 k := by
      funext a; apply Fin.ext
      match a with
      | ⟨0, _⟩ => show win0_4.index t (0 : Fin 2) * 1 + 1 * 0 = 0; omega
      | ⟨1, _⟩ => show win0_4.index t (1 : Fin 2) * 1024 + 1 * k.val = k.val; omega
    rw [hi]; exact b1_at m c 0 k
  · intro k l'
    show V m c main_v12 (((cfg0.win 5).blk t).view.emb (ix2 k l')) = _
    have hi : ((cfg0.win 5).blk t).view.emb (ix2 k l') = ix2 k l' := by
      funext a; apply Fin.ext
      match a with
      | ⟨0, _⟩ => show win0_5.index t (0 : Fin 2) * 1024 + 1 * k.val = k.val; omega
      | ⟨1, _⟩ => show win0_5.index t (1 : Fin 2) * 128 + 1 * l'.val = l'.val; omega
    rw [hi]; exact w2_at m c _
  · intro l'
    show V m c main_v15 (((cfg0.win 6).blk t).view.emb (ix2 0 l')) = _
    have hi : ((cfg0.win 6).blk t).view.emb (ix2 0 l') = ix2 0 l' := by
      funext a; apply Fin.ext
      match a with
      | ⟨0, _⟩ => show win0_6.index t (0 : Fin 2) * 1 + 1 * 0 = 0; omega
      | ⟨1, _⟩ => show win0_6.index t (1 : Fin 2) * 128 + 1 * l'.val = l'.val; omega
    rw [hi]; exact b2_at m c 0 l'
  · apply Fin.ext
    show win0_7.index t (1 : Fin 2) * 128 + 1 * l.val = l.val
    omega

/-- An index of the result is in point `t`'s block iff each coordinate is in the block's range on its axis. -/
theorem mem_block (t : Fin cfg0.N) (i : S32768x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v16).slice (win0_7.rect t)).set ↔ _
  rw [View.set_slice_whole, Rect.mem_set_unit]
  exact Iff.rfl

/-- Every index of the result is in some point's block: the one whose row block is `row / 2048`. -/
theorem covered (i : S32768x128.Idx) :
    ∃ t : Fin cfg0.N, (cfg0.win 7).flush t = true ∧ i ∈ ((cfg0.win 7).blk t).view.set := by
  have hi0 : (i 0).val < 32768 := (i 0).isLt
  have hi1 : (i 1).val < 128 := (i 1).isLt
  obtain ⟨t, ht⟩ := index_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- The result array after the run is `whole`. -/
theorem final (c : Dev nD) : (dats m 0 c).arrAt 7 cfg0.N = whole m c :=
  (dats m 0 c).arrAt_eq_of_cover 7 (whole m c) (fun t _ => flushed_eq m c t) covered

/-- The kernel's run with the result array named. -/
theorem run : θ_run defs (onTc (τ := τ) (main (F := Ideal))) ⟨m, fun _ => 0, ρ⟩ fun r => ∀ c : Dev nD,
      r.2.mem ((c : Thread nD τ).loc main_v16) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefLayers.lean ====
/-
  The reference, read layer by layer at an index.

  The reference keeps batch and position as two axes: each layer is a product contracting the last axis, a bias
  broadcast over batch and position, and (after the first two) the rectifier; a final reshape flattens batch × position
  into rows. At (b, s, ·) each layer is the affine map of the row (b, s, ·) of the layer before, so the flattened
  result at row r is the three layers applied to the gathered row (r / 1024, r % 1024).
-/
import proofs.«170255_j5815385719211_1_alg».proof.Proof.Gen.ReferenceIdeal.Read
import proofs.«170255_j5815385719211_1_alg».proof.Proof.Spec
import Idealize.ShloMosaic.Lib.ValueIdx

noncomputable section

open scoped BigOperators

namespace Cert.ReferenceIdeal.Layers

open Cert.ReferenceIdeal Cert.ReferenceIdeal.Gen Cert.ReferenceIdeal.Read Idealize.ShloMosaic Idealize.ShloMosaic.TcCoe
open Idealize.ShloMosaic.ValueIdx Cert.TokenMlp

variable (x0 : (⟨S32x1024, .i32⟩ : BufTy).Contents (Elt Ideal)) (x1 : (⟨S50257x512, .f32⟩ : BufTy).Contents (Elt Ideal)) (x2 : (⟨S512x512, .f32⟩ : BufTy).Contents (Elt Ideal)) (x3 : (⟨S512, .f32⟩ : BufTy).Contents (Elt Ideal)) (x4 : (⟨S512x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal))

/-- The gathered row (b, s, ·) as a function of the coordinate. -/
abbrev row (b : Fin 32) (s : Fin 1024) : Fin 512 → EReal := fun e => val_main_v6 (F := Ideal) x0 x1 (ix3 b s e)

/-- Layer 1 with its rectifier at (b, s, j). The weight is stored (outgoing, incoming). -/
theorem layer1_at (b : Fin 32) (s : Fin 1024) (j : Fin 512) :
    val_main_v11 (F := Ideal) x0 x1 x2 x3 (ix3 b s j)
    = rectified (row x0 x1 b s) (fun e j => x2 (ix2 j e)) (fun j => x3 (ix1 j)) j := by
  rw [val_main_v11_apply, val_main_v10_apply, val_main_v7_apply, val_main_v9_apply, val_main_v8_apply,
    val_main_call0_v0_apply, val_main_call0_cst_apply]
  have e1 : ∀ k : Fin 512, lidx_main_v7 (ix3 b s j) k = ix3 b s k := fun k => funext fun a => Fin.ext (by
    match a with | ⟨0, _⟩ => rfl | ⟨1, _⟩ => rfl | ⟨2, _⟩ => rfl)
  have e2 : ∀ k : Fin 512, ridx_main_v7 (ix3 b s j) k = ix2 j k := fun k => funext fun a => Fin.ext (by
    match a with | ⟨0, _⟩ => rfl | ⟨1, _⟩ => rfl)
  have e3 : idx_main_v8 (idx_main_v9 (ix3 b s j)) = ix1 j := funext fun a => Fin.ext (by
    match a with | ⟨0, _⟩ => rfl)
  simp only [e1, e2, e3]
  rfl

/-- Layer 2 with its rectifier at (b, s, k). -/
theorem layer2_at (b : Fin 32) (s : Fin 1024) (k : Fin 1024) :
    val_main_v16 (F := Ideal) x0 x1 x2 x3 x4 x5 (ix3 b s k)
    = rectified (rectified (row x0 x1 b s) (fun e j => x2 (ix2 j e)) (fun j => x3 (ix1 j)))
        (fun j k => x4 (ix2 j k)) (fun k => x5 (ix1 k)) k := by
  rw [val_main_v16_apply, val_main_v15_apply, val_main_v12_apply, val_main_v14_apply, val_main_v13_apply,
    val_main_call1_v0_apply, val_main_call1_cst_apply]
  have e1 : ∀ j : Fin 512, lidx_main_v12 (ix3 b s k) j = ix3 b s j := fun j => funext fun a => Fin.ext (by
    match a with | ⟨0, _⟩ => rfl | ⟨1, _⟩ => rfl | ⟨2, _⟩ => rfl)
  have e2 : ∀ j : Fin 512, ridx_main_v12 (ix3 b s k) j = ix2 j k := fun j => funext fun a => Fin.ext (by
    match a with | ⟨0, _⟩ => rfl | ⟨1, _⟩ => rfl)
  have e3 : idx_main_v13 (idx_main_v14 (ix3 b s k)) = ix1 k := funext fun a => Fin.ext (by
    match a with | ⟨0, _⟩ => rfl)
  simp only [e1, e2, e3, layer1_at]
  rfl

/-- Layer 3 (no rectifier) at (b, s, l). -/
theorem layer3_at (b : Fin 32) (s : Fin 1024) (l : Fin 128) :
    val_main_v20 (F := Ideal) x0 x1 x2 x3 x4 x5 x6 x7 (ix3 b s l)
    = mlp (row x0 x1 b s) (fun e j => x2 (ix2 j e)) (fun j => x3 (ix1 j))
        (fun j k => x4 (ix2 j k)) (fun k => x5 (ix1 k)) (fun k l => x6 (ix2 k l)) (fun l => x7 (ix1 l)) l := by
  rw [val_main_v20_apply, val_main_v17_apply, val_main_v19_apply, val_main_v18_apply]
  have e1 : ∀ k : Fin 1024, lidx_main_v17 (ix3 b s l) k = ix3 b s k := fun k => funext fun a => Fin.ext (by
    match a with | ⟨0, _⟩ => rfl | ⟨1, _⟩ => rfl | ⟨2, _⟩ => rfl)
  have e2 : ∀ k : Fin 1024, ridx_main_v17 (ix3 b s l) k = ix2 k l := fun k => funext fun a => Fin.ext (by
    match a with | ⟨0, _⟩ => rfl | ⟨1, _⟩ => rfl)
  have e3 : idx_main_v18 (idx_main_v19 (ix3 b s l)) = ix1 l := funext fun a => Fin.ext (by
    match a with | ⟨0, _⟩ => rfl)
  simp only [e1, e2, e3, layer2_at]
  rfl

/-- The flattening reshape reads row r at (r / 1024, r % 1024). -/
theorem flat_index (i : S32768x128.Idx) : idx_main_v21 i = ix3 (batchOf (i 0)) (posOf (i 0)) (i 1) := by
  have h0 : (i 0).val < 32768 := (i 0).isLt
  have h1 : (i 1).val < 128 := (i 1).isLt
  funext a; apply Fin.ext
  match a with
  | ⟨0, _⟩ => show ((i 0).val * 128 + (i 1).val) / 131072 = (i 0).val / 1024; omega
  | ⟨1, _⟩ => show ((i 0).val * 128 + (i 1).val) / 128 % 1024 = (i 0).val % 1024; omega
  | ⟨2, _⟩ => show ((i 0).val * 128 + (i 1).val) % 128 = (i 1).val; omega

/-- The reference's result is `result` of the gathered embeddings and the weights. -/
theorem result_eq : val_main_v21 (F := Ideal) x0 x1 x2 x3 x4 x5 x6 x7
    = result (val_main_v6 (F := Ideal) x0 x1) x2 x3 x4 x5 x6 x7 := by
  funext i
  rw [val_main_v21_apply, flat_index]
  exact layer3_at x0 x1 x2 x3 x4 x5 x6 x7 (batchOf (i 0)) (posOf (i 0)) (i 1)

end Cert.ReferenceIdeal.Layers

end
-- ==== Proof.lean ====
/-
  The certificate of the per-token three-layer network.

  Kernel: the host gathers one embedding row per token id and flattens batch × position into 32768 rows; one
  pallas_call over 16 row blocks multiplies by the (transposed) first weight, adds its bias, rectifies, does the same
  with the second weight, and applies the third weight and bias. Reference: the same gather, then three contractions
  over the last axis of a batch × position × coordinate array with the biases broadcast and the rectifier between,
  and a final flattening.

  On the extended reals both are ONE function of the arguments (`TokenMlp.result`): each product is the sum over the
  contracted coordinate of value times weight, the narrow float format is the identity, and row r of the flattened
  batch is position r % 1024 of batch entry r / 1024 on both sides. No algebraic law beyond reading both sides at an
  index is needed, so the finiteness of the inputs is never used. The kernel's side: Body (the stored block at an
  index), Arrays (what the region finds), Whole (blocks to array). The reference's side: RefLayers. The three frames
  are the generated ones; no operation was rewritten by the idealization, so `preserves` holds trivially.
-/
import proofs.«170255_j5815385719211_1_alg».proof.Defs
import proofs.«170255_j5815385719211_1_alg».proof.Proof.Gen.Kernel
import proofs.«170255_j5815385719211_1_alg».proof.Proof.Gen.Kernel.Skeleton
import proofs.«170255_j5815385719211_1_alg».proof.Proof.Gen.Kernel.Launch
import proofs.«170255_j5815385719211_1_alg».proof.Proof.Gen.Kernel.Points
import proofs.«170255_j5815385719211_1_alg».proof.Proof.Gen.Kernel.Frame
import proofs.«170255_j5815385719211_1_alg».proof.Proof.Gen.KernelIdeal
import proofs.«170255_j5815385719211_1_alg».proof.Proof.Gen.KernelIdeal.Skeleton
import proofs.«170255_j5815385719211_1_alg».proof.Proof.Gen.KernelIdeal.Launch
import proofs.«170255_j5815385719211_1_alg».proof.Proof.Gen.KernelIdeal.Points
import proofs.«170255_j5815385719211_1_alg».proof.Proof.Gen.KernelIdeal.Frame
import proofs.«170255_j5815385719211_1_alg».proof.Proof.Gen.ReferenceIdeal
import proofs.«170255_j5815385719211_1_alg».proof.Proof.Gen.Pre_finite_inputs
import proofs.«170255_j5815385719211_1_alg».proof.Proof.Gen.KernelIdeal.Value
import proofs.«170255_j5815385719211_1_alg».proof.Proof.Gen.ReferenceIdeal.Run
import proofs.«170255_j5815385719211_1_alg».proof.Proof.Gen.ReferenceIdeal.Read
import proofs.«170255_j5815385719211_1_alg».proof.Proof.Whole
import proofs.«170255_j5815385719211_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `TokenMlp.result` of the gathered embeddings and the weights; the two
    gathers are the same operation on arguments that agree. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Layers.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
